-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S512x7 .f32) (main_arg5 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x7 .f32 := Host.absf main_arg4
  let main_cst_6 : FVec F S_ .f32 := constant S_ .f32 0x7F800000#32
  let main_v20 : FVec F S512x7 .f32 := broadcastInDim S512x7 ![] bcast_S_S512x7 main_cst_6
  let main_v21 : IVec S512x7 1 := cmpf .olt main_v19 main_v20
  let main_c_7 : IVec S_ 1 := constantI S_ 1 1#1
  let main_v22 : IVec S_ 1 := (fun x v => Host.reduce IntOp.andi x v reducesTo_S512x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x512 .f32) (main_arg3 : FVec F S512 .f32) (main_arg4 : FVec F S512x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x512 .f32 := Host.absf main_arg2
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S1x512 : Shape := ⟨2, ![1, 512]⟩
abbrev S1x7 : Shape := ⟨2, ![1, 7]⟩
abbrev S10000x512 : Shape := ⟨2, ![10000, 512]⟩
abbrev S400x1433 : Shape := ⟨2, ![400, 1433]⟩
abbrev S400x512 : Shape := ⟨2, ![400, 512]⟩
abbrev S10000x7 : Shape := ⟨2, ![10000, 7]⟩
abbrev S200x10000 : Shape := ⟨2, ![200, 10000]⟩
abbrev S200x7 : Shape := ⟨2, ![200, 7]⟩
abbrev S200x512 : Shape := ⟨2, ![200, 512]⟩
abbrev S200 : Shape := ⟨1, ![200]⟩
abbrev S200x1 : Shape := ⟨2, ![200, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S1x512, .f32⟩
  | .hbm, ⟨7, _⟩ => ⟨S1x7, .f32⟩
  | .hbm, ⟨8, _⟩ => ⟨S10000x512, .f32⟩
  | .hbm, ⟨9, _⟩ => ⟨S10000x7, .f32⟩
  | .hbm, ⟨10, _⟩ => ⟨S10000x7, .f32⟩
  | .local _ .vmem, ⟨0, _⟩ => ⟨S400x1433, .f32⟩
  | .local _ .vmem, ⟨1, _⟩ => ⟨S400x1433, .f32⟩
  | .local _ .vmem, ⟨2, _⟩ => ⟨S1433x512, .f32⟩
  | .local _ .vmem, ⟨3, _⟩ => ⟨S400x512, .f32⟩
  | .local _ .vmem, ⟨4, _⟩ => ⟨S400x512, .f32⟩
  | .local _ .vmem, ⟨5, _⟩ => ⟨S200x10000, .f32⟩
  | .local _ .vmem, ⟨6, _⟩ => ⟨S200x10000, .f32⟩
  | .local _ .vmem, ⟨7, _⟩ => ⟨S10000x512, .f32⟩
  | .local _ .vmem, ⟨8, _⟩ => ⟨S1x512, .f32⟩
  | .local _ .vmem, ⟨9, _⟩ => ⟨S512x7, .f32⟩
  | .local _ .vmem, ⟨10, _⟩ => ⟨S200x7, .f32⟩
  | .local _ .vmem, ⟨11, _⟩ => ⟨S200x7, .f32⟩
  | .local _ .vmem, ⟨12, _⟩ => ⟨S200x10000, .f32⟩
  | .local _ .vmem, ⟨13, _⟩ => ⟨S200x10000, .f32⟩
  | .local _ .vmem, ⟨14, _⟩ => ⟨S10000x7, .f32⟩
  | .local _ .vmem, ⟨15, _⟩ => ⟨S1x7, .f32⟩
  | .local _ .vmem, ⟨16, _⟩ => ⟨S200x7, .f32⟩
  | .local _ .vmem, ⟨17, _⟩ => ⟨S200x7, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S512_S1x512 : S512.ShapeCasts S1x512
  shapeCasts_S7_S1x7 : S7.ShapeCasts S1x7
  inb_S400x1433_S400x1433_0_0 : ∀ a, (![0, 0] : Fin 2 → Nat) a + S400x1433.size a ≤ S400x1433.size a
  h_S400x1433 : 0 < S400x1433.numel
  inb_S1433x512_S1433x512_0_0 : ∀ a, (![0, 0] : Fin 2 → Nat) a + S1433x512.size a ≤ S1433x512.size a
  h_S1433x512 : 0 < S1433x512.numel
  bitsLt_bf16_f32 : FTy.bits .bf16 < FTy.bits .f32
  inb_S400x512_S400x512_0_0 : ∀ a, (![0, 0] : Fin 2 → Nat) a + S400x512.size a ≤ S400x512.size a
  h_S400x512 : 0 < S400x512.numel
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x7_S512x7_0_0 : ∀ a, (![0, 0] : Fin 2 → Nat) a + S512x7.size a ≤ S512x7.size a
  h_S512x7 : 0 < S512x7.numel
  inb_S200x7_S200x7_0_0 : ∀ a, (![0, 0] : Fin 2 → Nat) a + S200x7.size a ≤ S200x7.size a
  h_S200x7 : 0 < S200x7.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S200x7 : S1x7.Broadcasts S200x7
  reduces_S200x7_S200 : S200x7.Reduces [1] S200
  shapeCasts_S200_S200x1 : S200.ShapeCasts S200x1
  broadcasts_S200x1_S200x7 : S200x1.Broadcasts S200x7
  dot_S400x1433_S1433x512_S400x512_1_0_0_1_n_n_wf : DotDims.WF S400x1433 S1433x512 S400x512 [1] [0] [0] [1] [] []
  dot_S200x10000_S10000x512_S200x512_1_0_0_1_n_n_wf : DotDims.WF S200x10000 S10000x512 S200x512 [1] [0] [0] [1] [] []
  dot_S200x512_S512x7_S200x7_1_0_0_1_n_n_wf : DotDims.WF S200x512 S512x7 S200x7 [1] [0] [0] [1] [] []
  dot_S200x10000_S10000x7_S200x7_1_0_0_1_n_n_wf : DotDims.WF S200x10000 S10000x7 S200x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1433.size a ≤ S10000x1433.size a
  hwx0_0 : ∀ i : grid0.Coords, EltTy.bits .f32 = 32 ∨ (Rect.block (s := S10000x1433) S400x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .f32 = 32 ∨ (Rect.block (s := S1433x512) S1433x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .f32 = 32 ∨ (Rect.block (s := S10000x512) S400x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .f32 = 32 ∨ (Rect.block (s := S10000x512) S10000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x7.size a ≤ S512x7.size a
  hwx1_3 : ∀ i : grid1.Coords, EltTy.bits .f32 = 32 ∨ (Rect.block (s := S512x7) S512x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x7.size a ≤ S10000x7.size a
  hwx1_4 : ∀ i : grid1.Coords, EltTy.bits .f32 = 32 ∨ (Rect.block (s := S10000x7) S200x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .f32 = 32 ∨ (Rect.block (s := S10000x7) S10000x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x7.size a ≤ S10000x7.size a
  hwx2_3 : ∀ i : grid2.Coords, EltTy.bits .f32 = 32 ∨ (Rect.block (s := S10000x7) S200x7.size (cc2_transform_3 i) (hinb2_3 i)).WholeWords (EltTy.packing .f32)

variable [Facts₀]

def dot_S400x1433_S1433x512_S400x512_1_0_0_1_n_n : DotDims S400x1433 S1433x512 S400x512 where
  lhsContracting := [1]
  rhsContracting := [0]
  lhsNonContracting := [0]
  rhsNonContracting := [1]
  lhsBatch := []
  rhsBatch := []
  wf := dot_S400x1433_S1433x512_S400x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x7_S200x7_1_0_0_1_n_n : DotDims S200x512 S512x7 S200x7 where
  lhsContracting := [1]
  rhsContracting := [0]
  lhsNonContracting := [0]
  rhsNonContracting := [1]
  lhsBatch := []
  rhsBatch := []
  wf := dot_S200x512_S512x7_S200x7_1_0_0_1_n_n_wf
def dot_S200x10000_S10000x7_S200x7_1_0_0_1_n_n : DotDims S200x10000 S10000x7 S200x7 where
  lhsContracting := [1]
  rhsContracting := [0]
  lhsNonContracting := [0]
  rhsNonContracting := [1]
  lhsBatch := []
  rhsBatch := []
  wf := dot_S200x10000_S10000x7_S200x7_1_0_0_1_n_n_wf

abbrev win0_0 : Pipeline.Window sig grid0 :=
  Pipeline.Window.ofSpec (Memref.whole main_arg0) S400x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S200x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S10000x512 : Shape := ⟨2, ![10000, 512]⟩
abbrev S1x512 : Shape := ⟨2, ![1, 512]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x7, .f32⟩
  | .hbm, ⟨32, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x512_S10000x512_1_0_0_1_n_n_wf : DotDims.WF S10000x1433 S1433x512 S10000x512 [1] [0] [0] [1] [] []
  dot_S10000x10000_S10000x512_S10000x512_1_0_0_1_n_n_wf : DotDims.WF S10000x10000 S10000x512 S10000x512 [1] [0] [0] [1] [] []
  dot_S10000x512_S512x7_S10000x7_1_0_0_1_n_n_wf : DotDims.WF S10000x512 S512x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x512_S10000x512_1_0_0_1_n_n : DotDims S10000x1433 S1433x512 S10000x512 where
  lhsContracting := [1]
  rhsContracting := [0]
  lhsNonContracting := [0]
  rhsNonContracting := [1]
  lhsBatch := []
  rhsBatch := []
  wf := dot_S10000x1433_S1433x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x7_S10000x7_1_0_0_1_n_n : DotDims S10000x512 S512x7 S10000x7 where
  lhsContracting := [1]
  rhsContracting := [0]
  lhsNonContracting := [0]
  rhsNonContracting := [1]
  lhsBatch := []
  rhsBatch := []
  wf := dot_S10000x512_S512x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.Spec.lean ====
/-
  The graph-convolution forward pass as ONE function of the argument arrays, index by index, on the extended reals.

  With X the node features, A the adjacency matrix, W₁, W₂ the weights and b₁, b₂ the biases:
    S₁ = X · W₁                        (`support1`)
    H  = max (A · S₁ + b₁, 0)          (`hidden`: the bias laid along every row, then the rectifier)
    S₂ = H · W₂                        (`support2`)
    Z  = A · S₂ + b₂                   (`logits`)
    out = softmax over each row of Z   (`softmaxRows`: exp (z − row maximum) over the row's sum of those)
  Every matrix product is the plain sum over the contracted coordinate; sums on the extended reals are
  commutative and associative, so no order of summation is fixed here. The row maximum is the fold of `max`
  from −∞ over the seven entries of the row (`maxOfSeven`).
-/
import Idealize.ShloMosaic.PureOps.Ideal
import Idealize.ShloMosaic.Lib.ValueIdx

noncomputable section

namespace Cert.Gcn

open Idealize.ShloMosaic Idealize.ShloMosaic.ValueIdx

/-- A matrix of extended reals with literal extents. -/
abbrev Mat (r c : Nat) : Type := (⟨2, ![r, c]⟩ : Shape).Idx → EReal
/-- A vector of extended reals with a literal extent. -/
abbrev Vect (n : Nat) : Type := (⟨1, ![n]⟩ : Shape).Idx → EReal

/-- The zero the rectifier compares with, and −∞ the row maximum starts from, as the words both programs print. -/
abbrev zeroWord : EReal := Ideal.ofBits .f32 0x00000000#32
abbrev negInfWord : EReal := Ideal.ofBits .f32 0xFF800000#32

/-- A vector as a one-row matrix. -/
def rowOf {n : Nat} (b : Vect n) : Mat 1 n := fun j => b (ix1 (j 1))

/-- S₁ = X · W₁. -/
def support1 (x : Mat 10000 1433) (w1 : Mat 1433 512) : Mat 10000 512 :=
  fun i => ∑ k : Fin 1433, x (ix2 (i 0) k) * w1 (ix2 k (i 1))

/-- H = max (A · S₁ + b₁, 0), the bias given as a one-row matrix. -/
def hidden (adj : Mat 10000 10000) (s1 : Mat 10000 512) (b1 : Mat 1 512) : Mat 10000 512 :=
  fun i => max ((∑ k : Fin 10000, adj (ix2 (i 0) k) * s1 (ix2 k (i 1))) + b1 (ix2 0 (i 1))) zeroWord

/-- S₂ = H · W₂. -/
def support2 (h : Mat 10000 512) (w2 : Mat 512 7) : Mat 10000 7 :=
  fun i => ∑ k : Fin 512, h (ix2 (i 0) k) * w2 (ix2 k (i 1))

/-- Z = A · S₂ + b₂, the bias given as a one-row matrix. -/
def logits (adj : Mat 10000 10000) (s2 : Mat 10000 7) (b2 : Mat 1 7) : Mat 10000 7 :=
  fun i => (∑ k : Fin 10000, adj (ix2 (i 0) k) * s2 (ix2 k (i 1))) + b2 (ix2 0 (i 1))

/-- The maximum of seven logits: the fold of `max` from −∞ over them. -/
def maxOfSeven (z : Fin 7 → EReal) : EReal :=
  (Finset.univ : Finset (Fin 7)).fold max negInfWord z

/-- Entry q of the softmax of seven logits: exp (z q − their maximum) over the sum of exp (z k − their maximum). -/
def softmaxEntry (z : Fin 7 → EReal) (q : Fin 7) : EReal :=
  Ideal.div (Ideal.exp (z q - maxOfSeven z)) (∑ k : Fin 7, Ideal.exp (z k - maxOfSeven z))

/-- The softmax of each row of a matrix of logits. -/
def softmaxRows (z : Mat 10000 7) : Mat 10000 7 :=
  fun i => softmaxEntry (fun k => z (ix2 (i 0) k)) (i 1)

/-- The whole forward pass. -/
def forward (x : Mat 10000 1433) (adj : Mat 10000 10000) (w1 : Mat 1433 512) (b1 : Vect 512) (w2 : Mat 512 7) (b2 : Vect 7) :
    Mat 10000 7 :=
  softmaxRows (logits adj (support2 (hidden adj (support1 x w1) (rowOf b1)) w2) (rowOf b2))

end Cert.Gcn

end
-- ==== Proof.MatmulBlocks.lean ====
/-
  A matrix product of the kernel bodies read at an entry, on the extended reals: a product of an m×k by a k×n matrix
  accumulated into the zero matrix has at (p, q) the sum over the contracted coordinate c of left (p, c) · right (c, q)
  — no rounding and no order of accumulation is left in it. The kernel's product into zero is the host's product,
  which has no accumulator, and the host's plain product is that sum. Each of the four products the bodies make
  carries the plain dimension numbers (contract the left operand's columns with the right operand's rows, no batch
  axis), so the one lemma reads all four.
-/
import proofs.«132797_g25812753449811_rerun558fix_472_3_alg».proof.Proof.Gen.KernelIdeal
import Idealize.ShloMosaic.Lib.ValueIdx
import Idealize.ShloMosaic.Lib.KernelVsHost
import Idealize.ShloMosaic.Lib.StackMember
import Idealize.ShloMosaic.PureOps.Ideal.Laws

noncomputable section

namespace Cert.KernelIdeal.Products

open Cert.KernelIdeal Cert.KernelIdeal.Gen Idealize.ShloMosaic Idealize.ShloMosaic.ValueIdx

/-- Entry (p, q) of an m×k by k×n product accumulated into zero: the sum over c of left (p, c) · right (c, q). -/
theorem matmul_plain_apply {m k n : Nat} {φ₁ φ₂ : FTy} (prec : Option ContractPrecision)
    (A : FVec Ideal ⟨2, ![m, k]⟩ φ₁) (B : FVec Ideal ⟨2, ![k, n]⟩ φ₂) (p : Fin m) (q : Fin n) :
    matmul (DotDims.plain m k n) prec A B (constant ⟨2, ![m, n]⟩ .f32 0x00000000#32) (ix2 p q)
      = ∑ c : Fin k, A (ix2 p c) * B (ix2 c q) := by
  rw [matmul_zero_eq_dotGeneral]
  exact StackMember.dotGeneral_plain_apply prec A B p q

/-! The four printed dimension records are the plain one at their extents. -/

theorem dims_xw : dot_S400x1433_S1433x512_S400x512_1_0_0_1_n_n = DotDims.plain 400 1433 512 := rfl
theorem dims_as : dot_S200x10000_S10000x512_S200x512_1_0_0_1_n_n = DotDims.plain 200 10000 512 := rfl
theorem dims_hw : dot_S200x512_S512x7_S200x7_1_0_0_1_n_n = DotDims.plain 200 512 7 := rfl
theorem dims_az : dot_S200x10000_S10000x7_S200x7_1_0_0_1_n_n = DotDims.plain 200 10000 7 := rfl

end Cert.KernelIdeal.Products

end
-- ==== Proof.Region0.lean ====
/-
  The first region: S₁ = X · W₁, written back in 25 blocks of 400 rows.

  At grid point t the body multiplies rows 400·t … 400·t + 399 of X by the whole of W₁ and stores the 400 × 512 product;
  the pipeline writes it back as rows 400·t … 400·t + 399 of the result. Entry (p, q) of that block is
  ∑ₖ X (400·t + p, k) · W₁ (k, q), which is entry (400·t + p, q) of X · W₁: every block is a restriction of the ONE
  matrix X · W₁, and the 25 blocks tile the 10000 rows, so the array the region leaves is X · W₁.
  Stated at any contents `V` the region is entered from.
-/
import proofs.«132797_g25812753449811_rerun558fix_472_3_alg».proof.Proof.Gen.KernelIdeal.Frame
import proofs.«132797_g25812753449811_rerun558fix_472_3_alg».proof.Proof.Spec
import proofs.«132797_g25812753449811_rerun558fix_472_3_alg».proof.Proof.MatmulBlocks
import Idealize.ShloMosaic.Lib.Pipeline.Value

set_option maxRecDepth 16384

noncomputable section

namespace Cert.KernelIdeal.Region0

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The two arrays the region reads, by their literal types. -/
abbrev features (c : Dev nD) : Mat 10000 1433 := V c main_arg0
abbrev weights (c : Dev nD) : Mat 1433 512 := V c main_arg2

theorem offsets_zero : (![0, 0] : Fin 2 → Nat) = fun _ => 0 := funext fun a => by fin_cases a <;> rfl

/-- The body's product at entry (p, q) of its block: ∑ₖ x (p, k) · w (k, q); the change of format of the operands is
    the identity on the extended reals. -/
theorem product_apply (x : Vec Ideal S400x1433 .f32) (w : Vec Ideal S1433x512 .f32) (p : Fin 400) (q : Fin 512) :
    k0_pay1 (F := Ideal) x w (ix2 p q) = ∑ k : Fin 1433, x (ix2 p k) * w (ix2 k q) :=
  Products.matmul_plain_apply none (truncf .bf16 x bitsLt_bf16_f32) (truncf .bf16 w bitsLt_bf16_f32) p q

/-- The index maps over the grid: the block of X and the block of the result move together down the rows, one block per
    point; W₁'s block never moves. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks is some point's. -/
theorem index_onto : ∀ b : Fin 25, ∃ t : Fin cfg0.N, win0_2.index t = ![b.val, 0] :=
  (by decide +kernel : ∀ b : Fin 25, ∃ t : Fin grid0.N, win0_2.index t = ![b.val, 0])

/-- What point t writes back is block t of X · W₁. -/
theorem flushed_eq (c : Dev nD) (t : Fin cfg0.N) :
    (dat0 V c).flushed 2 t = ((cfg0.win 2).blk t).view.read (Elt Ideal) (support1 (V c main_arg0) (V c main_arg2)) := by
  show (cfg0.win 2).cut (grid0.coords t) ((dat0 V c).after 2 t) = _
  rw [after0_2]
  unfold out0_2
  rw [View.canon_unit_zero offsets_zero]
  simp only [View.ld_unit_zero (S := S400x1433) offsets_zero, View.ld_unit_zero (S := S1433x512) offsets_zero]
  obtain ⟨e0, e1, e2, e3, e4⟩ := index_facts t
  funext j
  obtain ⟨p, q, rfl⟩ : ∃ (p : Fin 400) (q : Fin 512), j = ix2 p q := ⟨j 0, j 1, eq_ix2 j⟩
  refine (product_apply _ _ p q).trans ?_
  show ∑ k : Fin 1433, features V c (((cfg0.win 0).blk t).view.emb (ix2 p k)) * weights V c (((cfg0.win 1).blk t).view.emb (ix2 k q))
      = ∑ k : Fin 1433, features V c (ix2 ((((cfg0.win 2).blk t).view.emb (ix2 p q)) 0) k) * weights V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 400 + 1 * p.val = win0_2.index t (0 : Fin 2) * 400 + 1 * p.val; omega
    | ⟨1, _⟩ => show win0_0.index t (1 : Fin 2) * 1433 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 1433 + 1 * k.val = k.val; omega
    | ⟨1, _⟩ => show win0_1.index t (1 : Fin 2) * 512 + 1 * q.val = win0_2.index t (1 : Fin 2) * 512 + 1 * q.val; omega
  exact congrArg₂ (· * ·) (congrArg (features V c) h0) (congrArg (weights V c) h1)

/-- An entry of the result is in point t's block iff each coordinate is in the block's range on its axis. -/
theorem mem_block (t : Fin cfg0.N) (i : S10000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole main_v2).slice (win0_2.rect t)).set ↔ _
  rw [View.set_slice_whole, Rect.mem_set_unit]
  exact Iff.rfl

/-- Row r lies in the block of the point whose block index is r / 400. -/
theorem covered (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ := index_onto ⟨(i 0).val / 400, by omega⟩
  have q0 : win0_2.index t (0 : Fin 2) = (i 0).val / 400 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 512 ≤ (i 1).val ∧ (i 1).val < win0_2.index t (1 : Fin 2) * 512 + 512; omega

/-- The array the first region leaves is X · W₁ of the arrays it was entered with. -/
theorem array (c : Dev nD) : (dat0 V c).arrAt 2 cfg0.N = support1 (V c main_arg0) (V c main_arg2) :=
  (dat0 V c).arrAt_eq_of_cover 2 _ (fun t _ => flushed_eq V c t) covered

end Cert.KernelIdeal.Region0

end
-- ==== Proof.Region1.lean ====
/-
  The second region: S₂ = max (A · S₁ + b₁, 0) · W₂, written back in 50 blocks of 200 rows.

  At grid point t the body takes rows 200·t … 200·t + 199 of the adjacency matrix A, the whole of S₁, the bias as a
  one-row matrix and the whole of W₂; it forms the 200 × 512 block of hidden activations
  H (p, h) = max (∑ₗ A (200·t + p, l) · S₁ (l, h) + b₁ (h), 0) — never written to memory — and stores the 200 × 7 product
  ∑ₕ H (p, h) · W₂ (h, q). A row of H depends only on the same row of A, so the block of H is rows 200·t … of the one
  matrix max (A · S₁ + b₁, 0), and the stored block is a restriction of the ONE matrix H · W₂; the 50 blocks tile the
  10000 rows. Stated at any contents `V` the region is entered from.
-/
import proofs.«132797_g25812753449811_rerun558fix_472_3_alg».proof.Proof.Gen.KernelIdeal.Frame
import proofs.«132797_g25812753449811_rerun558fix_472_3_alg».proof.Proof.Spec
import proofs.«132797_g25812753449811_rerun558fix_472_3_alg».proof.Proof.MatmulBlocks
import Idealize.ShloMosaic.Lib.Pipeline.Value
import Idealize.ShloMosaic.Lib.ValueLayout

set_option maxRecDepth 16384

noncomputable section

namespace Cert.KernelIdeal.Region1

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The four arrays the region reads, by their literal types. -/
abbrev adjacency (c : Dev nD) : Mat 10000 10000 := V c main_arg1
abbrev support (c : Dev nD) : Mat 10000 512 := V c main_v2
abbrev biasRow (c : Dev nD) : Mat 1 512 := V c main_v0
abbrev weights (c : Dev nD) : Mat 512 7 := V c main_arg4

theorem offsets_zero : (![0, 0] : Fin 2 → Nat) = fun _ => 0 := funext fun a => by fin_cases a <;> rfl

/-- The body's stored value at entry (p, q) of its block: ∑ₕ max (∑ₗ a (p, l) · s (l, h) + b (0, h), 0) · w (h, q).
    The changes of format are the identity on the extended reals, a cast to the same shape is the identity, and the
    one-row bias broadcast down the rows reads its one row. -/
theorem stored_apply (a : Vec Ideal S200x10000 .f32) (s : Vec Ideal S10000x512 .f32) (b : Vec Ideal S1x512 .f32)
    (w : Vec Ideal S512x7 .f32) (p : Fin 200) (q : Fin 7) :
    k1_pay1 (F := Ideal) a s b w (ix2 p q)
      = ∑ h : Fin 512, max ((∑ l : Fin 10000, a (ix2 p l) * s (ix2 l h)) + b (ix2 (0 : Fin 1) h)) zeroWord * w (ix2 h q) := by
  unfold k1_pay1
  refine (Products.matmul_plain_apply none _ _ p q).trans ?_
  refine Finset.sum_congr rfl fun h _ => ?_
  refine congrArg₂ (· * ·) ?_ rfl
  refine congrArg₂ max ?_ rfl
  refine congrArg₂ (· + ·) ?_ ?_
  · refine (Products.matmul_plain_apply none _ _ p h).trans ?_
    refine Finset.sum_congr rfl fun l _ => ?_
    refine congrArg₂ (· * ·) rfl ?_
    exact congrFun (shapeCast_self s _) (ix2 l h)
  · refine (broadcastTo_1b_ab_apply _ _ p h).trans ?_
    exact congrFun (shapeCast_self b _) (ix2 (0 : Fin 1) h)

/-- The index maps over the grid: the block of A and the block of the result move together down the rows, one block per
    point; the blocks of S₁, the bias and W₂ never move. -/
theorem index_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every one of the 50 row blocks is some point's. -/
theorem index_onto : ∀ b : Fin 50, ∃ t : Fin cfg1.N, win1_4.index t = ![b.val, 0] :=
  (by decide +kernel : ∀ b : Fin 50, ∃ t : Fin grid1.N, win1_4.index t = ![b.val, 0])

/-- What point t writes back is block t of max (A · S₁ + b₁, 0) · W₂. -/
theorem flushed_eq (c : Dev nD) (t : Fin cfg1.N) :
    (dat1 V c).flushed 4 t = ((cfg1.win 4).blk t).view.read (Elt Ideal)
      (support2 (hidden (V c main_arg1) (V c main_v2) (V c main_v0)) (V c main_arg4)) := by
  show (cfg1.win 4).cut (grid1.coords t) ((dat1 V c).after 4 t) = _
  rw [after1_4]
  unfold out1_4
  rw [View.canon_unit_zero offsets_zero]
  simp only [View.ld_unit_zero (S := S200x10000) offsets_zero, View.ld_unit_zero (S := S10000x512) offsets_zero,
    View.ld_unit_zero (S := S1x512) offsets_zero, View.ld_unit_zero (S := S512x7) offsets_zero]
  obtain ⟨e0, e1, e2, e3, e4, e5, e6, e7, e8⟩ := index_facts t
  funext j
  obtain ⟨p, q, rfl⟩ : ∃ (p : Fin 200) (q : Fin 7), j = ix2 p q := ⟨j 0, j 1, eq_ix2 j⟩
  refine (stored_apply _ _ _ _ p q).trans ?_
  show ∑ h : Fin 512, max ((∑ l : Fin 10000, adjacency V c (((cfg1.win 0).blk t).view.emb (ix2 p l)) * support V c (((cfg1.win 1).blk t).view.emb (ix2 l h)))
        + biasRow V c (((cfg1.win 2).blk t).view.emb (ix2 (0 : Fin 1) h))) zeroWord * weights V c (((cfg1.win 3).blk t).view.emb (ix2 h q))
      = ∑ h : Fin 512, max ((∑ l : Fin 10000, adjacency V c (ix2 ((((cfg1.win 4).blk t).view.emb (ix2 p q)) 0) l) * support V c (ix2 l h))
        + biasRow V c (ix2 (0 : Fin 1) h)) zeroWord * weights V c (ix2 h ((((cfg1.win 4).blk t).view.emb (ix2 p q)) 1))
  refine Finset.sum_congr rfl fun h _ => ?_
  have hs : ∀ l : Fin 10000, ((cfg1.win 1).blk t).view.emb (ix2 l h) = ix2 l h := fun l => by
    funext a; apply Fin.ext
    match a with
    | ⟨0, _⟩ => show win1_1.index t (0 : Fin 2) * 10000 + 1 * l.val = l.val; omega
    | ⟨1, _⟩ => show win1_1.index t (1 : Fin 2) * 512 + 1 * h.val = h.val; omega
  have ha : ∀ l : Fin 10000, ((cfg1.win 0).blk t).view.emb (ix2 p l) = ix2 ((((cfg1.win 4).blk t).view.emb (ix2 p q)) 0) l := fun l => by
    funext a; apply Fin.ext
    match a with
    | ⟨0, _⟩ => show win1_0.index t (0 : Fin 2) * 200 + 1 * p.val = win1_4.index t (0 : Fin 2) * 200 + 1 * p.val; omega
    | ⟨1, _⟩ => show win1_0.index t (1 : Fin 2) * 10000 + 1 * l.val = l.val; omega
  have hb : ((cfg1.win 2).blk t).view.emb (ix2 (0 : Fin 1) h) = ix2 (0 : Fin 1) h := by
    funext a; apply Fin.ext
    match a with
    | ⟨0, _⟩ => show win1_2.index t (0 : Fin 2) * 1 + 1 * 0 = 0; omega
    | ⟨1, _⟩ => show win1_2.index t (1 : Fin 2) * 512 + 1 * h.val = h.val; omega
  have hw : ((cfg1.win 3).blk t).view.emb (ix2 h q) = ix2 h ((((cfg1.win 4).blk t).view.emb (ix2 p q)) 1) := by
    funext a; apply Fin.ext
    match a with
    | ⟨0, _⟩ => show win1_3.index t (0 : Fin 2) * 512 + 1 * h.val = h.val; omega
    | ⟨1, _⟩ => show win1_3.index t (1 : Fin 2) * 7 + 1 * q.val = win1_4.index t (1 : Fin 2) * 7 + 1 * q.val; omega
  refine congrArg₂ (· * ·) (congrArg₂ max (congrArg₂ (· + ·) (Finset.sum_congr rfl fun l _ => ?_) (congrArg (biasRow V c) hb)) rfl)
    (congrArg (weights V c) hw)
  exact congrArg₂ (· * ·) (congrArg (adjacency V c) (ha l)) (congrArg (support V c) (hs l))

/-- An entry of the result is in point t's block iff each coordinate is in the block's range on its axis. -/
theorem mem_block (t : Fin cfg1.N) (i : S10000x7.Idx) :
    i ∈ ((cfg1.win 4).blk t).view.set ↔ ∀ a : Fin 2, win1_4.index t a * S200x7.size a ≤ (i a).val ∧ (i a).val < win1_4.index t a * S200x7.size a + S200x7.size a := by
  show i ∈ ((View.whole main_v3).slice (win1_4.rect t)).set ↔ _
  rw [View.set_slice_whole, Rect.mem_set_unit]
  exact Iff.rfl

/-- Row r lies in the block of the point whose block index is r / 200. -/
theorem covered (i : S10000x7.Idx) : ∃ t : Fin cfg1.N, (cfg1.win 4).flush t = true ∧ i ∈ ((cfg1.win 4).blk t).view.set := by
  have hi0 : (i 0).val < 10000 := (i 0).isLt
  have hi1 : (i 1).val < 7 := (i 1).isLt
  obtain ⟨t, ht⟩ := index_onto ⟨(i 0).val / 200, by omega⟩
  have q0 : win1_4.index t (0 : Fin 2) = (i 0).val / 200 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 7 ≤ (i 1).val ∧ (i 1).val < win1_4.index t (1 : Fin 2) * 7 + 7; omega

/-- The array the second region leaves is max (A · S₁ + b₁, 0) · W₂ of the arrays it was entered with. -/
theorem array (c : Dev nD) : (dat1 V c).arrAt 4 cfg1.N
    = support2 (hidden (V c main_arg1) (V c main_v2) (V c main_v0)) (V c main_arg4) :=
  (dat1 V c).arrAt_eq_of_cover 4 _ (fun t _ => flushed_eq V c t) covered

end Cert.KernelIdeal.Region1

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Region2.lean ====
/-
  The third region: out = softmax over each row of A · S₂ + b₂, written back in 50 blocks of 200 rows.

  At grid point t the body takes rows 200·t … 200·t + 199 of the adjacency matrix A, the whole of S₂ and the bias as a
  one-row matrix, forms the 200 × 7 block of logits Z (p, k) = ∑ₗ A (200·t + p, l) · S₂ (l, k) + b₂ (k), takes each row's
  maximum (the fold of max from −∞ over its seven entries), exponentiates the differences, sums each row of those and
  divides. Every step acts within a row, and row p of the block of logits is row 200·t + p of the ONE matrix A · S₂ + b₂,
  so the stored block is a restriction of the row softmax of that matrix; the 50 blocks tile the 10000 rows.
  Stated at any contents `V` the region is entered from.
-/
import proofs.«132797_g25812753449811_rerun558fix_472_3_alg».proof.Proof.Gen.KernelIdeal.Frame
import proofs.«132797_g25812753449811_rerun558fix_472_3_alg».proof.Proof.Spec
import proofs.«132797_g25812753449811_rerun558fix_472_3_alg».proof.Proof.MatmulBlocks
import proofs.«132797_g25812753449811_rerun558fix_472_3_alg».proof.Proof.LibColumns
import Idealize.ShloMosaic.Lib.Pipeline.Value
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Gcn Cert.Lib.Columns
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays the region reads, by their literal types. -/
abbrev adjacency (c : Dev nD) : Mat 10000 10000 := V c main_arg1
abbrev support (c : Dev nD) : Mat 10000 7 := V c main_v3
abbrev biasRow (c : Dev nD) : Mat 1 7 := V c main_v1

theorem offsets_zero : (![0, 0] : Fin 2 → Nat) = fun _ => 0 := funext fun a => by fin_cases a <;> rfl

/-! ## The row softmax of a 200 × 7 block -/

/-- The index a reduction over the columns reads at row p and column k is (p, k). -/
theorem lift_row (h : S200x7.Reduces [1] S200) (p : Fin 200) (k : Fin 7) : h.lift (ix1 p) k = ix2 p k :=
  funext fun a => Fin.ext (by
    match a with
    | ⟨0, _⟩ => rfl
    | ⟨1, _⟩ => rfl)

/-- The row maximum, kept as a column and laid back along the row, reads at (p, k) the maximum of row p's seven
    entries. -/
theorem rowmax_apply (z : FVec Ideal S200x7 .f32) (hred : S200x7.Reduces [1] S200) (hφ : FKind.Formats .f32)
    (hmax : (0xFF800000#32 : BitVec 32) = FKind.maximumf.neutral .f32 hφ)
    (hsc : S200.ShapeCasts S200x1) (hbc : S200x1.Broadcasts S200x7) (p : Fin 200) (k : Fin 7) :
    broadcastTo S200x7 (shapeCast S200x1 (multiReduction .maximumf [1] S200 z 0xFF800000#32 hred hφ hmax) hsc) hbc (ix2 p k)
      = maxOfSeven (fun j => z (ix2 p j)) :=
  (broadcastTo_a1_ab_apply _ hbc p k).trans ((shapeCast_a_a1_apply _ hsc p 0).trans
    ((Ideal.multiReduction_maximumf_single z _ hred hφ hmax (ix1 p)).trans
      (congrArg (fun f : Fin 7 → EReal => (Finset.univ : Finset (Fin 7)).fold max negInfWord f)
        (funext fun j => congrArg z (lift_row hred p j)))))

/-- What the body does with a block of logits z — row maximum, exponentials of the differences, row sum, quotient —
    is at (p, q) the softmax entry q of row p's seven logits. -/
theorem softmax_block (z : FVec Ideal S200x7 .f32) (hred : S200x7.Reduces [1] S200) (hφ : FKind.Formats .f32)
    (hmax : (0xFF800000#32 : BitVec 32) = FKind.maximumf.neutral .f32 hφ)
    (hadd : (0x00000000#32 : BitVec 32) = FKind.add.neutral .f32 hφ)
    (hsc : S200.ShapeCasts S200x1) (hbc : S200x1.Broadcasts S200x7) (p : Fin 200) (q : Fin 7) :
    divf (exp (subf z (broadcastTo S200x7 (shapeCast S200x1 (multiReduction .maximumf [1] S200 z 0xFF800000#32 hred hφ hmax) hsc) hbc)))
      (broadcastTo S200x7 (shapeCast S200x1 (multiReduction .add [1] S200
        (exp (subf z (broadcastTo S200x7 (shapeCast S200x1 (multiReduction .maximumf [1] S200 z 0xFF800000#32 hred hφ hmax) hsc) hbc)))
        0x00000000#32 hred hφ hadd) hsc) hbc) (ix2 p q)
      = softmaxEntry (fun k => z (ix2 p k)) q := by
  have he : ∀ k : Fin 7,
      (exp (subf z (broadcastTo S200x7 (shapeCast S200x1 (multiReduction .maximumf [1] S200 z 0xFF800000#32 hred hφ hmax) hsc) hbc))
        : FVec Ideal S200x7 .f32) (ix2 p k)
        = Ideal.exp (z (ix2 p k) - maxOfSeven (fun j => z (ix2 p j))) := fun k =>
    congrArg (fun mx : EReal => Ideal.exp (z (ix2 p k) - mx)) (rowmax_apply z hred hφ hmax hsc hbc p k)
  unfold softmaxEntry
  refine congrArg₂ Ideal.div (he q) ?_
  refine (broadcastTo_a1_ab_apply _ hbc p q).trans ((shapeCast_a_a1_apply _ hsc p 0).trans
    ((Ideal.multiReduction_add_single _ _ hred hφ hadd (ix1 p)).trans ?_))
  refine Finset.sum_congr rfl fun k _ => ?_
  exact (congrArg _ (lift_row hred p k)).trans (he k)

/-! ## The body's stored value -/

/-- The logit the body forms at (p, k) of its block: ∑ₗ a (p, l) · s (l, k) + b (0, k). -/
def blockLogit (a : Vec Ideal S200x10000 .f32) (s : Vec Ideal S10000x7 .f32) (b : Vec Ideal S1x7 .f32) (p : Fin 200) (k : Fin 7) : EReal :=
  (∑ l : Fin 10000, a (ix2 p l) * s (ix2 l k)) + b (ix2 (0 : Fin 1) k)

/-- The body's stored value at entry (p, q) of its block: the softmax entry q of row p's logits. The changes of format
    are the identity on the extended reals, a cast to the same shape is the identity, and the one-row bias broadcast
    down the rows reads its one row. -/
theorem stored_apply (a : Vec Ideal S200x10000 .f32) (s : Vec Ideal S10000x7 .f32) (b : Vec Ideal S1x7 .f32)
    (p : Fin 200) (q : Fin 7) :
    k2_pay1 (F := Ideal) a s b (ix2 p q) = softmaxEntry (blockLogit a s b p) q := by
  unfold k2_pay1
  refine (softmax_block _ _ _ _ _ _ _ p q).trans ?_
  refine congrArg (fun z : Fin 7 → EReal => softmaxEntry z q) (funext fun k => ?_)
  unfold blockLogit
  refine congrArg₂ (· + ·) ?_ ?_
  · refine (Products.matmul_plain_apply none _ _ p k).trans ?_
    refine Finset.sum_congr rfl fun l _ => ?_
    refine congrArg₂ (· * ·) rfl ?_
    exact congrFun (shapeCast_self s _) (ix2 l k)
  · refine (broadcastTo_1b_ab_apply _ _ p k).trans ?_
    exact congrFun (shapeCast_self b _) (ix2 (0 : Fin 1) k)

/-! ## From blocks to the array -/

/-- The index maps over the grid: the block of A and the block of the result move together down the rows, one block per
    point; the blocks of S₂ and the bias never move. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every one of the 50 row blocks is some point's. -/
theorem index_onto : ∀ b : Fin 50, ∃ t : Fin cfg2.N, win2_3.index t = ![b.val, 0] :=
  (by decide +kernel : ∀ b : Fin 50, ∃ t : Fin grid2.N, win2_3.index t = ![b.val, 0])

/-- What point t writes back is block t of the row softmax of A · S₂ + b₂. -/
theorem flushed_eq (c : Dev nD) (t : Fin cfg2.N) :
    (dat2 V c).flushed 3 t = ((cfg2.win 3).blk t).view.read (Elt Ideal)
      (softmaxRows (logits (V c main_arg1) (V c main_v3) (V c main_v1))) := by
  show (cfg2.win 3).cut (grid2.coords t) ((dat2 V c).after 3 t) = _
  rw [after2_3]
  unfold out2_3
  rw [View.canon_unit_zero offsets_zero]
  simp only [View.ld_unit_zero (S := S200x10000) offsets_zero, View.ld_unit_zero (S := S10000x7) offsets_zero,
    View.ld_unit_zero (S := S1x7) offsets_zero]
  obtain ⟨e0, e1, e2, e3, e4, e5, e6⟩ := index_facts t
  funext j
  obtain ⟨p, q, rfl⟩ : ∃ (p : Fin 200) (q : Fin 7), j = ix2 p q := ⟨j 0, j 1, eq_ix2 j⟩
  refine (stored_apply _ _ _ p q).trans ?_
  have hq : q = (((cfg2.win 3).blk t).view.emb (ix2 p q)) 1 := Fin.ext (by
    show q.val = win2_3.index t (1 : Fin 2) * 7 + 1 * q.val; omega)
  show softmaxEntry (fun k => (∑ l : Fin 10000, adjacency V c (((cfg2.win 0).blk t).view.emb (ix2 p l)) * support V c (((cfg2.win 1).blk t).view.emb (ix2 l k)))
        + biasRow V c (((cfg2.win 2).blk t).view.emb (ix2 (0 : Fin 1) k))) q
      = softmaxEntry (fun k => (∑ l : Fin 10000, adjacency V c (ix2 ((((cfg2.win 3).blk t).view.emb (ix2 p q)) 0) l) * support V c (ix2 l k))
        + biasRow V c (ix2 (0 : Fin 1) k)) ((((cfg2.win 3).blk t).view.emb (ix2 p q)) 1)
  refine congrArg₂ softmaxEntry (funext fun k => ?_) hq
  have hs : ∀ l : Fin 10000, ((cfg2.win 1).blk t).view.emb (ix2 l k) = ix2 l k := fun l => by
    funext a; apply Fin.ext
    match a with
    | ⟨0, _⟩ => show win2_1.index t (0 : Fin 2) * 10000 + 1 * l.val = l.val; omega
    | ⟨1, _⟩ => show win2_1.index t (1 : Fin 2) * 7 + 1 * k.val = k.val; omega
  have ha : ∀ l : Fin 10000, ((cfg2.win 0).blk t).view.emb (ix2 p l) = ix2 ((((cfg2.win 3).blk t).view.emb (ix2 p q)) 0) l := fun l => by
    funext a; apply Fin.ext
    match a with
    | ⟨0, _⟩ => show win2_0.index t (0 : Fin 2) * 200 + 1 * p.val = win2_3.index t (0 : Fin 2) * 200 + 1 * p.val; omega
    | ⟨1, _⟩ => show win2_0.index t (1 : Fin 2) * 10000 + 1 * l.val = l.val; omega
  have hb : ((cfg2.win 2).blk t).view.emb (ix2 (0 : Fin 1) k) = ix2 (0 : Fin 1) k := by
    funext a; apply Fin.ext
    match a with
    | ⟨0, _⟩ => show win2_2.index t (0 : Fin 2) * 1 + 1 * 0 = 0; omega
    | ⟨1, _⟩ => show win2_2.index t (1 : Fin 2) * 7 + 1 * k.val = k.val; omega
  refine congrArg₂ (· + ·) (Finset.sum_congr rfl fun l _ => ?_) (congrArg (biasRow V c) hb)
  exact congrArg₂ (· * ·) (congrArg (adjacency V c) (ha l)) (congrArg (support V c) (hs l))

/-- An entry of the result is in point t's block iff each coordinate is in the block's range on its axis. -/
theorem mem_block (t : Fin cfg2.N) (i : S10000x7.Idx) :
    i ∈ ((cfg2.win 3).blk t).view.set ↔ ∀ a : Fin 2, win2_3.index t a * S200x7.size a ≤ (i a).val ∧ (i a).val < win2_3.index t a * S200x7.size a + S200x7.size a := by
  show i ∈ ((View.whole main_v4).slice (win2_3.rect t)).set ↔ _
  rw [View.set_slice_whole, Rect.mem_set_unit]
  exact Iff.rfl

/-- Row r lies in the block of the point whose block index is r / 200. -/
theorem covered (i : S10000x7.Idx) : ∃ t : Fin cfg2.N, (cfg2.win 3).flush t = true ∧ i ∈ ((cfg2.win 3).blk t).view.set := by
  have hi0 : (i 0).val < 10000 := (i 0).isLt
  have hi1 : (i 1).val < 7 := (i 1).isLt
  obtain ⟨t, ht⟩ := index_onto ⟨(i 0).val / 200, by omega⟩
  have q0 : win2_3.index t (0 : Fin 2) = (i 0).val / 200 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 200 ≤ (i 0).val ∧ (i 0).val < win2_3.index t (0 : Fin 2) * 200 + 200; omega
  | ⟨1, _⟩ => show win2_3.index t (1 : Fin 2) * 7 ≤ (i 1).val ∧ (i 1).val < win2_3.index t (1 : Fin 2) * 7 + 7; omega

/-- The array the third region leaves is the row softmax of A · S₂ + b₂ of the arrays it was entered with. -/
theorem array (c : Dev nD) : (dat2 V c).arrAt 3 cfg2.N
    = softmaxRows (logits (V c main_arg1) (V c main_v3) (V c main_v1)) :=
  (dat2 V c).arrAt_eq_of_cover 3 _ (fun t _ => flushed_eq V c t) covered

end Cert.KernelIdeal.Region2

end
-- ==== Proof.KernelValue.lean ====
/-
  The kernel program's result array, after the three regions, is the forward pass of Spec of the arrays it was
  launched with.

  The contents at the boundaries between @main's segments are a chain: the launch memory; after the two host reshapes
  (each bias as a one-row matrix); after each region, its output array at what its write-backs leave and every other
  buffer as entered. Read backwards from the result: the last region's output is the row softmax of A · S₂ + b₂ of what
  it was entered with; of those, S₂ is the second region's output, max (A · S₁ + b₁, 0) · W₂ of what THAT was entered
  with; of those, S₁ is the first region's output X · W₁. No region and no host operation writes an argument array,
  so each argument is read back through the chain to its launch contents; each bias row is the reshape of its bias,
  which at (0, h) reads b (h).
-/
import proofs.«132797_g25812753449811_rerun558fix_472_3_alg».proof.Proof.Gen.KernelIdeal.Frame
import proofs.«132797_g25812753449811_rerun558fix_472_3_alg».proof.Proof.Spec
import proofs.«132797_g25812753449811_rerun558fix_472_3_alg».proof.Proof.Region0
import proofs.«132797_g25812753449811_rerun558fix_472_3_alg».proof.Proof.Region1
import proofs.«132797_g25812753449811_rerun558fix_472_3_alg».proof.Proof.Region2
import Idealize.ShloMosaic.Lib.ValueLayout
import Idealize.ShloMosaic.Lib.StableHlo.Run

set_option maxRecDepth 16384

noncomputable section

namespace Cert.KernelIdeal.Chain

open Cert.KernelIdeal Cert.KernelIdeal.Gen Cert.Gcn
open Idealize.ShloMosaic Idealize.ShloMosaic.TcCoe Idealize.ShloMosaic.ValueIdx Idealize.ShloMosaic.StableHlo
open Idealize.SL.Sem
open Idealize.ShloMosaic.Pipeline (Dat)

/-- A function of three arguments at equal arguments. -/
theorem congr_three {α β γ δ : Type} (f : α → β → γ → δ) {a a' : α} {b b' : β} {d d' : γ}
    (ha : a = a') (hb : b = b') (hd : d = d') : f a b d = f a' b' d' := by
  subst ha hb hd; rfl

variable (m : (ℓ : Loc nD τ sig) → Buf (Elt Ideal) ℓ) (ρ : Dev nD → PrngReg) (c : Dev nD)

/-! ## The argument arrays at each boundary are the launch contents -/

/-- A, as the third region is entered. -/
theorem adj_at3 : W3 m ρ c (Proc.devRef .tc main_arg1) = m ((c : Thread nD τ).loc main_arg1) :=
  ((W4_arr m ρ c 0).trans (((dat2 (V3 m ρ) c).arrAt_in 0 rfl _).trans (A_eq2 (V3 m ρ) c 0))).symm.trans (W4_main_arg1 m ρ c)

/-- A, as the second region is entered. -/
theorem adj_at2 : W2 m ρ c (Proc.devRef .tc main_arg1) = m ((c : Thread nD τ).loc main_arg1) :=
  ((W3_arr m ρ c 0).trans (((dat1 (V2 m ρ) c).arrAt_in 0 rfl _).trans (A_eq1 (V2 m ρ) c 0))).symm.trans (adj_at3 m ρ c)

/-- W₂, as the second region is entered. -/
theorem w2_at2 : W2 m ρ c (Proc.devRef .tc main_arg4) = m ((c : Thread nD τ).loc main_arg4) :=
  ((W3_arr m ρ c 3).trans (((dat1 (V2 m ρ) c).arrAt_in 3 rfl _).trans (A_eq1 (V2 m ρ) c 3))).symm.trans
    ((W4_of_ne m ρ c main_arg4 (by decide)).symm.trans (W4_main_arg4 m ρ c))

/-- X, as the first region is entered. -/
theorem x_at1 : W1 m ρ c (Proc.devRef .tc main_arg0) = m ((c : Thread nD τ).loc main_arg0) :=
  ((W2_arr m ρ c 0).trans (((dat0 (V1 m ρ) c).arrAt_in 0 rfl _).trans (A_eq0 (V1 m ρ) c 0))).symm.trans
    ((W3_of_ne m ρ c main_arg0 (by decide)).symm.trans ((W4_of_ne m ρ c main_arg0 (by decide)).symm.trans (W4_main_arg0 m ρ c)))

/-- W₁, as the first region is entered. -/
theorem w1_at1 : W1 m ρ c (Proc.devRef .tc main_arg2) = m ((c : Thread nD τ).loc main_arg2) :=
  ((W2_arr m ρ c 1).trans (((dat0 (V1 m ρ) c).arrAt_in 1 rfl _).trans (A_eq0 (V1 m ρ) c 1))).symm.trans
    ((W3_of_ne m ρ c main_arg2 (by decide)).symm.trans ((W4_of_ne m ρ c main_arg2 (by decide)).symm.trans (W4_main_arg2 m ρ c)))

/-- The biases are never written: after the host reshapes they still hold their launch contents. -/
theorem b1_at1 : W1 m ρ c (Proc.devRef .tc main_arg3) = m ((c : Thread nD τ).loc main_arg3) :=
  (W2_of_ne m ρ c main_arg3 (by decide)).symm.trans ((W3_of_ne m ρ c main_arg3 (by decide)).symm.trans
    ((W4_of_ne m ρ c main_arg3 (by decide)).symm.trans (W4_main_arg3 m ρ c)))
theorem b2_at1 : W1 m ρ c (Proc.devRef .tc main_arg5) = m ((c : Thread nD τ).loc main_arg5) :=
  (W2_of_ne m ρ c main_arg5 (by decide)).symm.trans ((W3_of_ne m ρ c main_arg5 (by decide)).symm.trans
    ((W4_of_ne m ρ c main_arg5 (by decide)).symm.trans (W4_main_arg5 m ρ c)))

/-! ## The bias rows -/

/-- A vector reshaped to one row reads at (0, h) the vector at h. -/
theorem reshape_row {n : Nat} (b : Vect n) (h : (⟨1, ![n]⟩ : Shape).ShapeCasts ⟨2, ![1, n]⟩) :
    (shapeCast ⟨2, ![1, n]⟩ b h : Mat 1 n) = rowOf b := by
  funext j
  obtain ⟨u, i, rfl⟩ : ∃ (u : Fin 1) (i : Fin n), j = ix2 u i := ⟨j 0, j 1, eq_ix2 j⟩
  exact shapeCast_a_1a_apply b h u i

/-- The first bias row, after the host reshapes, is b₁ as one row. -/
theorem bias1_at1 : (W1 m ρ c (Proc.devRef .tc main_v0) : Mat 1 512) = rowOf (m ((c : Thread nD τ).loc main_arg3)) := by
  have e : (W1 m ρ c (Proc.devRef .tc main_v0) : Mat 1 512)
      = shapeCast S1x512 (m ((c : Thread nD τ).loc main_arg3)) shapeCasts_S512_S1x512 := by
    dsimp only [W1, hostOps0]; after_results; rfl
  exact e.trans (reshape_row _ _)

/-- The second bias row, after the host reshapes, is b₂ as one row. -/
theorem bias2_at1 : (W1 m ρ c (Proc.devRef .tc main_v1) : Mat 1 7) = rowOf (m ((c : Thread nD τ).loc main_arg5)) := by
  have e : (W1 m ρ c (Proc.devRef .tc main_v1) : Mat 1 7)
      = shapeCast S1x7 (m ((c : Thread nD τ).loc main_arg5)) shapeCasts_S7_S1x7 := by
    dsimp only [W1, hostOps0]; after_results; rfl
  exact e.trans (reshape_row _ _)

/-- The bias rows are not touched by the first two regions. -/
theorem bias1_at2 : (W2 m ρ c (Proc.devRef .tc main_v0) : Mat 1 512) = rowOf (m ((c : Thread nD τ).loc main_arg3)) :=
  (W2_of_ne m ρ c main_v0 (by decide)).trans (bias1_at1 m ρ c)
theorem bias2_at3 : (W3 m ρ c (Proc.devRef .tc main_v1) : Mat 1 7) = rowOf (m ((c : Thread nD τ).loc main_arg5)) :=
  (W3_of_ne m ρ c main_v1 (by decide)).trans ((W2_of_ne m ρ c main_v1 (by decide)).trans (bias2_at1 m ρ c))

/-! ## The regions' outputs, composed -/

/-- S₁ as the second region is entered: the first region's output. -/
theorem s1_at2 : (W2 m ρ c (Proc.devRef .tc main_v2) : Mat 10000 512)
    = support1 (m ((c : Thread nD τ).loc main_arg0)) (m ((c : Thread nD τ).loc main_arg2)) :=
  (W2_arr m ρ c 2).trans ((Region0.array (V1 m ρ) c).trans
    (congrArg₂ support1 (x_at1 m ρ c) (w1_at1 m ρ c)))

/-- S₂ as the third region is entered: the second region's output. -/
theorem s2_at3 : (W3 m ρ c (Proc.devRef .tc main_v3) : Mat 10000 7)
    = support2 (hidden (m ((c : Thread nD τ).loc main_arg1))
        (support1 (m ((c : Thread nD τ).loc main_arg0)) (m ((c : Thread nD τ).loc main_arg2)))
        (rowOf (m ((c : Thread nD τ).loc main_arg3)))) (m ((c : Thread nD τ).loc main_arg4)) :=
  (W3_arr m ρ c 4).trans ((Region1.array (V2 m ρ) c).trans
    (congrArg₂ support2 (congr_three Gcn.hidden (adj_at2 m ρ c) (s1_at2 m ρ c) (bias1_at2 m ρ c)) (w2_at2 m ρ c)))

/-- THE RESULT: the array @main returns holds the forward pass of the launch arrays. -/
theorem result_eq : (W4 m ρ c (Proc.devRef .tc main_v4) : Mat 10000 7)
    = forward (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W4_arr m ρ c 3).trans ((Region2.array (V3 m ρ) c).trans
    (congrArg softmaxRows (congr_three logits (adj_at3 m ρ c) (s2_at3 m ρ c) (bias2_at3 m ρ c))))

end Cert.KernelIdeal.Chain

end
-- ==== Proof.RefValue.lean ====
/-
  The reference program computes the forward pass of Spec: its operations, read one at a time at an entry, are the
  stages S₁ = X · W₁, H = max (A · S₁ + b₁, 0), S₂ = H · W₂, Z = A · S₂ + b₂ and the row softmax of Z.

  Each host matrix product at an entry is the sum over the contracted coordinate; the bias is broadcast first to one
  row and then down the rows, so at (r, h) it reads b (h); the rectifier compares with the zero word. The row maximum
  is the host's reduction from −∞ over the row's seven entries, joined once more with −∞ (the join with the value the
  fold started from changes nothing: the fold is at least its starting value); the row sum starts from the zero word,
  which is the extended real 0.
-/
import proofs.«132797_g25812753449811_rerun558fix_472_3_alg».proof.Proof.Gen.ReferenceIdeal.Read
import proofs.«132797_g25812753449811_rerun558fix_472_3_alg».proof.Proof.Spec
import Idealize.ShloMosaic.PureOps.Reduce
import Mathlib.Data.Finset.Fold
import Idealize.ShloMosaic.PureOps.Ideal.Laws

noncomputable section

namespace Cert.ReferenceIdeal.RefValue

open Cert.ReferenceIdeal Cert.ReferenceIdeal.Gen Cert.ReferenceIdeal.Read Cert.Gcn
open Idealize.ShloMosaic Idealize.ShloMosaic.TcCoe Idealize.ShloMosaic.ValueIdx

variable (x0 : (⟨S10000x1433, .f32⟩ : BufTy).Contents (Elt Ideal)) (x1 : (⟨S10000x10000, .f32⟩ : BufTy).Contents (Elt Ideal)) (x2 : (⟨S1433x512, .f32⟩ : BufTy).Contents (Elt Ideal))
  (x3 : (⟨S512, .f32⟩ : BufTy).Contents (Elt Ideal)) (x4 : (⟨S512x7, .f32⟩ : BufTy).Contents (Elt Ideal)) (x5 : (⟨S7, .f32⟩ : BufTy).Contents (Elt Ideal))

/-! ## The operand indices of the four products, by coordinates -/

theorem left_v0 (i : S10000x512.Idx) (k : Fin 1433) : lidx_main_v0 i k = ix2 (i 0) k :=
  funext fun a => Fin.ext (by match a with | ⟨0, _⟩ => rfl | ⟨1, _⟩ => rfl)
theorem right_v0 (i : S10000x512.Idx) (k : Fin 1433) : ridx_main_v0 i k = ix2 k (i 1) :=
  funext fun a => Fin.ext (by match a with | ⟨0, _⟩ => rfl | ⟨1, _⟩ => rfl)
theorem left_v1 (i : S10000x512.Idx) (k : Fin 10000) : lidx_main_v1 i k = ix2 (i 0) k :=
  funext fun a => Fin.ext (by match a with | ⟨0, _⟩ => rfl | ⟨1, _⟩ => rfl)
theorem right_v1 (i : S10000x512.Idx) (k : Fin 10000) : ridx_main_v1 i k = ix2 k (i 1) :=
  funext fun a => Fin.ext (by match a with | ⟨0, _⟩ => rfl | ⟨1, _⟩ => rfl)
theorem left_v6 (i : S10000x7.Idx) (k : Fin 512) : lidx_main_v6 i k = ix2 (i 0) k :=
  funext fun a => Fin.ext (by match a with | ⟨0, _⟩ => rfl | ⟨1, _⟩ => rfl)
theorem right_v6 (i : S10000x7.Idx) (k : Fin 512) : ridx_main_v6 i k = ix2 k (i 1) :=
  funext fun a => Fin.ext (by match a with | ⟨0, _⟩ => rfl | ⟨1, _⟩ => rfl)
theorem left_v7 (i : S10000x7.Idx) (k : Fin 10000) : lidx_main_v7 i k = ix2 (i 0) k :=
  funext fun a => Fin.ext (by match a with | ⟨0, _⟩ => rfl | ⟨1, _⟩ => rfl)
theorem right_v7 (i : S10000x7.Idx) (k : Fin 10000) : ridx_main_v7 i k = ix2 k (i 1) :=
  funext fun a => Fin.ext (by match a with | ⟨0, _⟩ => rfl | ⟨1, _⟩ => rfl)

/-! ## The stages -/

/-- %0 is S₁ = X · W₁. -/
theorem stage_support1 : val_main_v0 (F := Ideal) x0 x2 = support1 x0 x2 := by
  funext i
  refine (val_main_v0_apply x0 x2 i).trans ?_
  exact Finset.sum_congr rfl fun k _ => congrArg₂ (· * ·) (congrArg x0 (left_v0 i k)) (congrArg x2 (right_v0 i k))

/-- %5 is H = max (A · S₁ + b₁, 0). -/
theorem stage_hidden : val_main_v5 (F := Ideal) x0 x1 x2 x3 = hidden x1 (support1 x0 x2) (rowOf x3) := by
  funext i
  refine (val_main_v5_apply x0 x1 x2 x3 i).trans ?_
  unfold Gcn.hidden
  refine congrArg₂ max ?_ ?_
  · refine (val_main_v4_apply x0 x1 x2 x3 i).trans ?_
    refine congrArg₂ (· + ·) ?_ ?_
    · refine (val_main_v1_apply x0 x1 x2 i).trans ?_
      rw [stage_support1]
      exact Finset.sum_congr rfl fun k _ =>
        congrArg₂ (· * ·) (congrArg x1 (left_v1 i k)) (congrArg (support1 x0 x2) (right_v1 i k))
    · refine (val_main_v3_apply x3 i).trans ((val_main_v2_apply x3 _).trans ?_)
      exact congrArg x3 (funext fun a => Fin.ext (by match a with | ⟨0, _⟩ => rfl))
  · exact (val_main_call0_v0_apply i).trans (val_main_call0_cst_apply _)

/-- %6 is S₂ = H · W₂. -/
theorem stage_support2 :
    val_main_v6 (F := Ideal) x0 x1 x2 x3 x4 = support2 (hidden x1 (support1 x0 x2) (rowOf x3)) x4 := by
  funext i
  refine (val_main_v6_apply x0 x1 x2 x3 x4 i).trans ?_
  rw [stage_hidden]
  exact Finset.sum_congr rfl fun k _ =>
    congrArg₂ (· * ·) (congrArg (hidden x1 (support1 x0 x2) (rowOf x3)) (left_v6 i k)) (congrArg x4 (right_v6 i k))

/-- %10 is Z = A · S₂ + b₂. -/
theorem stage_logits :
    val_main_v10 (F := Ideal) x0 x1 x2 x3 x4 x5
      = logits x1 (support2 (hidden x1 (support1 x0 x2) (rowOf x3)) x4) (rowOf x5) := by
  funext i
  refine (val_main_v10_apply x0 x1 x2 x3 x4 x5 i).trans ?_
  unfold logits
  refine congrArg₂ (· + ·) ?_ ?_
  · refine (val_main_v7_apply x0 x1 x2 x3 x4 i).trans ?_
    rw [stage_support2]
    exact Finset.sum_congr rfl fun k _ =>
      congrArg₂ (· * ·) (congrArg x1 (left_v7 i k))
        (congrArg (support2 (hidden x1 (support1 x0 x2) (rowOf x3)) x4) (right_v7 i k))
  · refine (val_main_v9_apply x5 i).trans ((val_main_v8_apply x5 _).trans ?_)
    exact congrArg x5 (funext fun a => Fin.ext (by match a with | ⟨0, _⟩ => rfl))

/-! ## The row softmax -/

/-- The join of a fold of `max` with the value it started from is the fold. -/
theorem max_start_fold (b : EReal) (f : Fin 7 → EReal) :
    max b ((Finset.univ : Finset (Fin 7)).fold max b f) = (Finset.univ : Finset (Fin 7)).fold max b f :=
  max_eq_right ((Finset.le_fold_max (s := (Finset.univ : Finset (Fin 7))) (f := f) (b := b) (c := b)).mpr (Or.inl le_rfl))

theorem reduces_rows : S10000x7.Reduces [1] S10000 := by decide

/-- The index the row reduction reads at row r and column k is (r, k). -/
theorem lift_row (h : S10000x7.Reduces [1] S10000) (r : Fin 10000) (k : Fin 7) : h.lift (ix1 r) k = ix2 r k :=
  funext fun a => Fin.ext (by match a with | ⟨0, _⟩ => rfl | ⟨1, _⟩ => rfl)

/-- %15, the row maximum laid back along the row, reads at (r, k) the maximum of row r's seven logits. -/
theorem rowmax_apply (r : Fin 10000) (k : Fin 7) :
    val_main_v15 (F := Ideal) x0 x1 x2 x3 x4 x5 (ix2 r k)
      = maxOfSeven (fun j => val_main_v10 (F := Ideal) x0 x1 x2 x3 x4 x5 (ix2 r j)) := by
  refine (val_main_v15_apply x0 x1 x2 x3 x4 x5 _).trans ((val_main_v14_apply x0 x1 x2 x3 x4 x5 _).trans ?_)
  have hj : idx_main_v14 (idx_main_v15 (ix2 r k)) = ix1 r :=
    funext fun a => Fin.ext (by match a with | ⟨0, _⟩ => rfl)
  rw [hj]
  refine (val_main_v13_apply x0 x1 x2 x3 x4 x5 (ix1 r)).trans ?_
  have h12 : val_main_v12 (F := Ideal) (ix1 r) = negInfWord :=
    (val_main_v12_apply (ix1 r)).trans (val_main_cst_0_apply _)
  have h11 : val_main_v11 (F := Ideal) x0 x1 x2 x3 x4 x5 (ix1 r)
      = (Finset.univ : Finset (Fin 7)).fold max negInfWord (fun j => val_main_v10 (F := Ideal) x0 x1 x2 x3 x4 x5 (ix2 r j)) := by
    unfold val_main_v11
    refine (Host.reduce_eq_fold_single FloatOps.maximumf _ _ reducesTo_S10000x7_S10000_d1 reduces_rows h_S_ (ix1 r)).trans ?_
    exact congrArg (fun f : Fin 7 → EReal => (Finset.univ : Finset (Fin 7)).fold max negInfWord f)
      (funext fun j => congrArg (val_main_v10 (F := Ideal) x0 x1 x2 x3 x4 x5) (lift_row reduces_rows r j))
  show max (val_main_v12 (F := Ideal) (ix1 r)) (val_main_v11 (F := Ideal) x0 x1 x2 x3 x4 x5 (ix1 r)) = _
  rw [h12, h11]
  exact max_start_fold _ _

/-- %17 at (r, k): exp (z (r, k) − the maximum of row r). -/
theorem exp_apply (r : Fin 10000) (k : Fin 7) :
    val_main_v17 (F := Ideal) x0 x1 x2 x3 x4 x5 (ix2 r k)
      = Ideal.exp (val_main_v10 (F := Ideal) x0 x1 x2 x3 x4 x5 (ix2 r k)
          - maxOfSeven (fun j => val_main_v10 (F := Ideal) x0 x1 x2 x3 x4 x5 (ix2 r j))) :=
  (val_main_v17_apply x0 x1 x2 x3 x4 x5 (ix2 r k)).trans
    (congrArg (fun mx : EReal => Ideal.exp (val_main_v10 (F := Ideal) x0 x1 x2 x3 x4 x5 (ix2 r k) - mx)) (rowmax_apply x0 x1 x2 x3 x4 x5 r k))

/-- %20, the row sum laid back along the row, reads at (r, q) the sum of row r's seven exponentials. -/
theorem rowsum_apply (r : Fin 10000) (q : Fin 7) :
    val_main_v20 (F := Ideal) x0 x1 x2 x3 x4 x5 (ix2 r q)
      = ∑ k : Fin 7, Ideal.exp (val_main_v10 (F := Ideal) x0 x1 x2 x3 x4 x5 (ix2 r k)
          - maxOfSeven (fun j => val_main_v10 (F := Ideal) x0 x1 x2 x3 x4 x5 (ix2 r j))) := by
  refine (val_main_v20_apply x0 x1 x2 x3 x4 x5 _).trans ((val_main_v19_apply x0 x1 x2 x3 x4 x5 _).trans ?_)
  have hj : idx_main_v19 (idx_main_v20 (ix2 r q)) = ix1 r :=
    funext fun a => Fin.ext (by match a with | ⟨0, _⟩ => rfl)
  rw [hj]
  refine (val_main_v18_apply x0 x1 x2 x3 x4 x5 (ix1 r)).trans ?_
  have h0 : val_main_cst_1 (F := Ideal) (Shape.Idx.first h_S_) = 0 :=
    (val_main_cst_1_apply _).trans Ideal.ofBits_zero_f32
  rw [h0, zero_add]
  refine Finset.sum_congr rfl fun k _ => ?_
  have hk : idx_main_v18 (ix1 r) k = ix2 r k :=
    funext fun a => Fin.ext (by match a with | ⟨0, _⟩ => rfl | ⟨1, _⟩ => rfl)
  rw [hk]
  exact exp_apply x0 x1 x2 x3 x4 x5 r k

/-- %21 is the row softmax of %10. -/
theorem stage_softmax :
    val_main_v21 (F := Ideal) x0 x1 x2 x3 x4 x5 = softmaxRows (val_main_v10 (F := Ideal) x0 x1 x2 x3 x4 x5) := by
  funext i
  obtain ⟨r, q, rfl⟩ : ∃ (r : Fin 10000) (q : Fin 7), i = ix2 r q := ⟨i 0, i 1, eq_ix2 i⟩
  refine (val_main_v21_apply x0 x1 x2 x3 x4 x5 (ix2 r q)).trans ?_
  exact congrArg₂ Ideal.div (exp_apply x0 x1 x2 x3 x4 x5 r q) (rowsum_apply x0 x1 x2 x3 x4 x5 r q)

/-- The reference's result is the forward pass of its arguments. -/
theorem result_eq : val_main_v21 (F := Ideal) x0 x1 x2 x3 x4 x5 = forward x0 x1 x2 x3 x4 x5 := by
  rw [stage_softmax, stage_logits]
  rfl

end Cert.ReferenceIdeal.RefValue

end
-- ==== Proof.lean ====
/-
  A two-layer graph convolution, softmax (A · (max (A · (X · W₁) + b₁, 0) · W₂) + b₂) over 10000 nodes, as three tiled
  kernels against the plain array program, equal on the extended reals.

  The kernel program computes S₁ = X · W₁ in 25 row blocks, then S₂ = max (A · S₁ + b₁, 0) · W₂ in 50 row blocks (the
  hidden activations live only inside a block), then the row softmax of A · S₂ + b₂ in 50 row blocks. Every product
  contracts its whole inner axis inside one block, and every other step acts within a row, so each block is a
  restriction of one whole-array function of the region's inputs (Proof/Region0, Region1, Region2); chained through
  the contents at the boundaries between regions the result is `Cert.Gcn.forward` of the arguments
  (Proof/KernelValue). The reference's operations read one at a time are the same stages (Proof/RefValue): a host
  product is the same sum over the contracted coordinate, the rounding of the kernel's operands to a narrower format
  is the identity on the extended reals, and the reference's extra join of the row maximum with −∞ changes nothing.
  No law used needs finite values — sums are only re-indexed, never distributed over — so the precondition is not
  opened. The idealization rewrote nothing, so `preserves` is `True`.
-/
import proofs.«132797_g25812753449811_rerun558fix_472_3_alg».proof.Defs
import proofs.«132797_g25812753449811_rerun558fix_472_3_alg».proof.Proof.Gen.Kernel
import proofs.«132797_g25812753449811_rerun558fix_472_3_alg».proof.Proof.Gen.Kernel.Frame
import proofs.«132797_g25812753449811_rerun558fix_472_3_alg».proof.Proof.Gen.KernelIdeal
import proofs.«132797_g25812753449811_rerun558fix_472_3_alg».proof.Proof.Gen.KernelIdeal.Frame
import proofs.«132797_g25812753449811_rerun558fix_472_3_alg».proof.Proof.Gen.ReferenceIdeal
import proofs.«132797_g25812753449811_rerun558fix_472_3_alg».proof.Proof.Gen.Pre_finite_inputs
import proofs.«132797_g25812753449811_rerun558fix_472_3_alg».proof.Proof.Gen.ReferenceIdeal.Run
import proofs.«132797_g25812753449811_rerun558fix_472_3_alg».proof.Proof.Gen.ReferenceIdeal.Read
import proofs.«132797_g25812753449811_rerun558fix_472_3_alg».proof.Proof.Spec
import proofs.«132797_g25812753449811_rerun558fix_472_3_alg».proof.Proof.KernelRun
import proofs.«132797_g25812753449811_rerun558fix_472_3_alg».proof.Proof.KernelValue
import proofs.«132797_g25812753449811_rerun558fix_472_3_alg».proof.Proof.RefValue
import Idealize.ShloMosaic.Adequacy
import Idealize.ShloMosaic.Init

noncomputable section

namespace Cert.Proof

open Idealize.ShloMosaic Idealize.ShloMosaic.TcCoe Idealize.SL.Sem

section Claims

variable [hPre : Cert.Pre_finite_inputs.Facts]

/-- The kernel program as printed runs and leaves its arguments as launched. -/
theorem frame_kernel : Cert.frame_Kernel (hKernel := Cert.Kernel.Gen.facts) :=
  fun m ρ _ => Cert.Kernel.Gen.frame m ρ

/-- The idealized kernel program runs and leaves its arguments as launched. -/
theorem frame_kernelIdeal : Cert.frame_KernelIdeal (hKernelIdeal := Cert.KernelIdeal.Gen.facts) :=
  fun m ρ _ => Cert.KernelIdeal.Gen.frame m ρ

/-- The idealized reference runs and leaves its arguments as launched: its run with the result dropped. -/
theorem frame_referenceIdeal : Cert.frame_ReferenceIdeal (hReferenceIdeal := Cert.ReferenceIdeal.Gen.facts) :=
  fun m ρ _ => (θ_run Cert.ReferenceIdeal.defs _ _).mono (fun _ h c => (h c).2)
    (Cert.ReferenceIdeal.Value.run (F := Ideal) m ρ)

/-- Both idealized programs, from memories agreeing on the arguments, end with the forward pass of the arguments in
    their result arrays. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Gcn.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.Gen.run_result (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5⟩ := hagree c
    rw [(h c).1, Cert.ReferenceIdeal.Read.val_main_v21_eq, Cert.ReferenceIdeal.RefValue.result_eq, h0, h1, h2, h3, h4, h5]

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
